-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x2048 .f32) (main_arg1 : IVec S2x400000 32) (main_arg2 : FVec F S2048x512 .f32) (main_arg3 : FVec F S512 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S2048x512 .f32 := Host.absf main_arg2
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S1000x2048 : Shape := ⟨2, ![1000, 2048]⟩
abbrev S1000x512 : Shape := ⟨2, ![1000, 512]⟩
abbrev S450000x512 : Shape := ⟨2, ![450000, 512]⟩
abbrev S1x512 : Shape := ⟨2, ![1, 512]⟩
abbrev S50000x1 : Shape := ⟨2, ![50000, 1]⟩

abbrev nBuf : Space → Nat
  | .hbm => 79
  | .vmem => 5
  | .smem => 0
  | _ => 0

abbrev bufTy : (tb : Table) → Fin (tcTables nBuf tb) → BufTy
  | .hbm, ⟨0, _⟩ => ⟨S50000x2048, .f32⟩
  | .hbm, ⟨1, _⟩ => ⟨S2x400000, .i32⟩
  | .hbm, ⟨2, _⟩ => ⟨S2048x512, .f32⟩
  | .hbm, ⟨3, _⟩ => ⟨S512, .f32⟩
  | .hbm, ⟨4, _⟩ => ⟨S50000, .i32⟩
  | .hbm, ⟨5, _⟩ => ⟨S1x400000, .i32⟩
  | .hbm, ⟨6, _⟩ => ⟨S400000, .i32⟩
  | .hbm, ⟨7, _⟩ => ⟨S450000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S_, .f32⟩
  | .hbm, ⟨12, _⟩ => ⟨S450000, .f32⟩
  | .hbm, ⟨13, _⟩ => ⟨S_, .f32⟩
  | .hbm, ⟨14, _⟩ => ⟨S50000, .f32⟩
  | .hbm, ⟨15, _⟩ => ⟨S450000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S450000, .i32⟩
  | .hbm, ⟨27, _⟩ => ⟨S450000, .i1⟩
  | .hbm, ⟨28, _⟩ => ⟨S_, .i32⟩
  | .hbm, ⟨29, _⟩ => ⟨S450000, .i32⟩
  | .hbm, ⟨30, _⟩ => ⟨S450000, .i32⟩
  | .hbm, ⟨31, _⟩ => ⟨S450000, .i32⟩
  | .hbm, ⟨32, _⟩ => ⟨S450000x1, .i32⟩
  | .hbm, ⟨33, _⟩ => ⟨S450000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S450000, .f32⟩
  | .hbm, ⟨44, _⟩ => ⟨S50000x512, .f32⟩
  | .hbm, ⟨45, _⟩ => ⟨S450000x1, .f32⟩
  | .hbm, ⟨46, _⟩ => ⟨S_, .i32⟩
  | .hbm, ⟨47, _⟩ => ⟨S450000, .i32⟩
  | .hbm, ⟨48, _⟩ => ⟨S450000, .i1⟩
  | .hbm, ⟨49, _⟩ => ⟨S_, .i32⟩
  | .hbm, ⟨50, _⟩ => ⟨S450000, .i32⟩
  | .hbm, ⟨51, _⟩ => ⟨S450000, .i32⟩
  | .hbm, ⟨52, _⟩ => ⟨S450000, .i32⟩
  | .hbm, ⟨53, _⟩ => ⟨S450000x1, .i32⟩
  | .hbm, ⟨54, _⟩ => ⟨S450000x512, .f32⟩
  | .hbm, ⟨55, _⟩ => ⟨S450000x512, .f32⟩
  | .hbm, ⟨56, _⟩ => ⟨S450000x512, .f32⟩
  | .hbm, ⟨57, _⟩ => ⟨S_, .f32⟩
  | .hbm, ⟨58, _⟩ => ⟨S50000x512, .f32⟩
  | .hbm, ⟨59, _⟩ => ⟨S450000x1, .i32⟩
  | .hbm, ⟨60, _⟩ => ⟨S50000x512, .f32⟩
  | .hbm, ⟨61, _⟩ => ⟨S1x512, .f32⟩
  | .hbm, ⟨62, _⟩ => ⟨S50000x512, .f32⟩
  | .hbm, ⟨63, _⟩ => ⟨S50000x512, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x512, .f32⟩
  | .hbm, ⟨71, _⟩ => ⟨S50000x512, .f32⟩
  | .hbm, ⟨72, _⟩ => ⟨S50000x512, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S50000x512, .f32⟩
  | .hbm, ⟨78, _⟩ => ⟨S50000x512, .f32⟩
  | .local _ .vmem, ⟨0, _⟩ => ⟨S1000x2048, .f32⟩
  | .local _ .vmem, ⟨1, _⟩ => ⟨S1000x2048, .f32⟩
  | .local _ .vmem, ⟨2, _⟩ => ⟨S2048x512, .f32⟩
  | .local _ .vmem, ⟨3, _⟩ => ⟨S1000x512, .f32⟩
  | .local _ .vmem, ⟨4, _⟩ => ⟨S1000x512, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1000x512_S1000x512_0_0 : ∀ a, (![0, 0] : Fin 2 → Nat) a + S1000x512.size a ≤ S1000x512.size a
  h_S1000x512 : 0 < S1000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S1000x2048_S2048x512_S1000x512_1_0_0_1_n_n_wf : DotDims.WF S1000x2048 S2048x512 S1000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S50000x2048.size a
  hwx0_0 : ∀ i : grid0.Coords, EltTy.bits .f32 = 32 ∨ (Rect.block (s := S50000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S1000x2048_S2048x512_S1000x512_1_0_0_1_n_n : DotDims S1000x2048 S2048x512 S1000x512 where
  lhsContracting := [1]
  rhsContracting := [0]
  lhsNonContracting := [0]
  rhsNonContracting := [1]
  lhsBatch := []
  rhsBatch := []
  wf := dot_S1000x2048_S2048x512_S1000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x2048 : Shape := ⟨2, ![50000, 2048]⟩
abbrev S2x400000 : Shape := ⟨2, ![2, 400000]⟩
abbrev S2048x512 : Shape := ⟨2, ![2048, 512]⟩
abbrev S512 : Shape := ⟨1, ![512]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S450000x512 : Shape := ⟨2, ![450000, 512]⟩
abbrev S1x512 : Shape := ⟨2, ![1, 512]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S2x400000, .i32⟩
  | .hbm, ⟨2, _⟩ => ⟨S2048x512, .f32⟩
  | .hbm, ⟨3, _⟩ => ⟨S512, .f32⟩
  | .hbm, ⟨4, _⟩ => ⟨S50000, .i32⟩
  | .hbm, ⟨5, _⟩ => ⟨S1x400000, .i32⟩
  | .hbm, ⟨6, _⟩ => ⟨S400000, .i32⟩
  | .hbm, ⟨7, _⟩ => ⟨S450000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S_, .f32⟩
  | .hbm, ⟨12, _⟩ => ⟨S450000, .f32⟩
  | .hbm, ⟨13, _⟩ => ⟨S_, .f32⟩
  | .hbm, ⟨14, _⟩ => ⟨S50000, .f32⟩
  | .hbm, ⟨15, _⟩ => ⟨S450000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S450000, .i32⟩
  | .hbm, ⟨27, _⟩ => ⟨S450000, .i1⟩
  | .hbm, ⟨28, _⟩ => ⟨S_, .i32⟩
  | .hbm, ⟨29, _⟩ => ⟨S450000, .i32⟩
  | .hbm, ⟨30, _⟩ => ⟨S450000, .i32⟩
  | .hbm, ⟨31, _⟩ => ⟨S450000, .i32⟩
  | .hbm, ⟨32, _⟩ => ⟨S450000x1, .i32⟩
  | .hbm, ⟨33, _⟩ => ⟨S450000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S450000, .f32⟩
  | .hbm, ⟨44, _⟩ => ⟨S50000x512, .f32⟩
  | .hbm, ⟨45, _⟩ => ⟨S450000x1, .f32⟩
  | .hbm, ⟨46, _⟩ => ⟨S_, .i32⟩
  | .hbm, ⟨47, _⟩ => ⟨S450000, .i32⟩
  | .hbm, ⟨48, _⟩ => ⟨S450000, .i1⟩
  | .hbm, ⟨49, _⟩ => ⟨S_, .i32⟩
  | .hbm, ⟨50, _⟩ => ⟨S450000, .i32⟩
  | .hbm, ⟨51, _⟩ => ⟨S450000, .i32⟩
  | .hbm, ⟨52, _⟩ => ⟨S450000, .i32⟩
  | .hbm, ⟨53, _⟩ => ⟨S450000x1, .i32⟩
  | .hbm, ⟨54, _⟩ => ⟨S450000x512, .f32⟩
  | .hbm, ⟨55, _⟩ => ⟨S450000x512, .f32⟩
  | .hbm, ⟨56, _⟩ => ⟨S450000x512, .f32⟩
  | .hbm, ⟨57, _⟩ => ⟨S_, .f32⟩
  | .hbm, ⟨58, _⟩ => ⟨S50000x512, .f32⟩
  | .hbm, ⟨59, _⟩ => ⟨S450000x1, .i32⟩
  | .hbm, ⟨60, _⟩ => ⟨S50000x512, .f32⟩
  | .hbm, ⟨61, _⟩ => ⟨S1x512, .f32⟩
  | .hbm, ⟨62, _⟩ => ⟨S50000x512, .f32⟩
  | .hbm, ⟨63, _⟩ => ⟨S50000x512, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x512, .f32⟩
  | .hbm, ⟨71, _⟩ => ⟨S50000x512, .f32⟩
  | .hbm, ⟨72, _⟩ => ⟨S50000x512, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S50000x512, .f32⟩
  | .hbm, ⟨78, _⟩ => ⟨S50000x512, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x2048_S2048x512_S50000x512_1_0_0_1_n_n_wf : DotDims.WF S50000x2048 S2048x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x2048_S2048x512_S50000x512_1_0_0_1_n_n : DotDims S50000x2048 S2048x512 S50000x512 where
  lhsContracting := [1]
  rhsContracting := [0]
  lhsNonContracting := [0]
  rhsNonContracting := [1]
  lhsBatch := []
  rhsBatch := []
  wf := dot_S50000x2048_S2048x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

class Facts : Prop extends Facts₀ where

variable [Facts]
-- ==== Proof.DenseSpec.lean ====
/-
  The dense layer of the graph convolution, as one function over the extended reals.

  For node features `x : [50000, 2048]` and weights `w : [2048, 512]`, entry `(r, j)` of the transformed
  features `x · w` is the sum over the 2048 input features `k` of `x[r, k] · w[k, j]`. Both programs compute
  this matrix before the neighbourhood aggregation: the kernel one block of 1000 rows per grid point, the
  reference by one contraction over the whole arrays. A change of float format is the identity on the extended
  reals, so the kernel's narrowing of both operands changes nothing here.
-/
import Idealize.ShloMosaic.PureOps.Ideal
import Idealize.ShloMosaic.Lib.ValueIdx

noncomputable section

namespace Cert.Gcn

open Idealize.ShloMosaic Idealize.ShloMosaic.ValueIdx

/-- `x · w` at row `r = i 0` and column `j = i 1`: `∑ k, x[r, k] · w[k, j]`. -/
def dense (x : (⟨2, ![50000, 2048]⟩ : Shape).Idx → EReal) (w : (⟨2, ![2048, 512]⟩ : Shape).Idx → EReal) :
    (⟨2, ![50000, 512]⟩ : Shape).Idx → EReal :=
  fun i => ∑ k : Fin 2048, x (ix2 (⟨(i 0).val, idx2_lt0 i⟩ : Fin 50000) k) * w (ix2 k (⟨(i 1).val, idx2_lt1 i⟩ : Fin 512))

theorem dense_apply (x : (⟨2, ![50000, 2048]⟩ : Shape).Idx → EReal) (w : (⟨2, ![2048, 512]⟩ : Shape).Idx → EReal)
    (i : (⟨2, ![50000, 512]⟩ : Shape).Idx) :
    dense x w i = ∑ k : Fin 2048, x (ix2 (⟨(i 0).val, idx2_lt0 i⟩ : Fin 50000) k) * w (ix2 k (⟨(i 1).val, idx2_lt1 i⟩ : Fin 512)) := rfl

end Cert.Gcn

end
-- ==== Proof.KernelDense.lean ====
/-
  What the kernel region leaves in the transformed-features array `h` (at the extended reals).

  Grid point `t` (of 50) reads rows `1000 t … 1000 t + 999` of the node features and the whole weight matrix,
  and writes the product of the two blocks to rows `1000 t … 1000 t + 999` of `h`. Entry `(p, j)` of that
  product is `∑ k, xblock[p, k] · w[k, j]`, which is entry `(1000 t + p, j)` of `x · w`. The fifty row blocks
  tile the array, so after the region `h = x · w` (`Cert.Gcn.dense`).
-/
import proofs.«169280_j30288109371814_1_alg».proof.Proof.Gen.KernelIdeal.Frame
import proofs.«169280_j30288109371814_1_alg».proof.Proof.DenseSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Dense

open Cert.KernelIdeal Cert.KernelIdeal.Gen Idealize.ShloMosaic.ValueIdx

/-! ## One block product at an entry -/

/-- The left operand of the block contraction at output entry `y` is read in row `y 0`; -/
theorem lhs_axis0 (y : S1000x512.Idx) (q : dot_S1000x2048_S2048x512_S1000x512_1_0_0_1_n_n.contr.Idx) :
    (dot_S1000x2048_S2048x512_S1000x512_1_0_0_1_n_n.lhsIdx y q 0).val = (y 0).val := by
  unfold DotDims.lhsIdx
  rw [dif_neg (show ¬(0 : Fin S1000x2048.rank) ∈ dot_S1000x2048_S2048x512_S1000x512_1_0_0_1_n_n.lhsBatch by decide), dif_pos (show (0 : Fin S1000x2048.rank) ∈ dot_S1000x2048_S2048x512_S1000x512_1_0_0_1_n_n.lhsNonContracting by decide)]
  rfl
/-- at the contracted feature; -/
theorem lhs_axis1 (y : S1000x512.Idx) (q : dot_S1000x2048_S2048x512_S1000x512_1_0_0_1_n_n.contr.Idx) :
    (dot_S1000x2048_S2048x512_S1000x512_1_0_0_1_n_n.lhsIdx y q 1).val = (q ⟨0, by decide⟩).val :=
  dot_S1000x2048_S2048x512_S1000x512_1_0_0_1_n_n.lhsIdx_val_of_single rfl y q
/-- the right operand in the row of the contracted feature, -/
theorem rhs_axis0 (y : S1000x512.Idx) (q : dot_S1000x2048_S2048x512_S1000x512_1_0_0_1_n_n.contr.Idx) :
    (dot_S1000x2048_S2048x512_S1000x512_1_0_0_1_n_n.rhsIdx y q 0).val = (q ⟨0, by decide⟩).val :=
  dot_S1000x2048_S2048x512_S1000x512_1_0_0_1_n_n.rhsIdx_val_of_single rfl y q
/-- at column `y 1`. -/
theorem rhs_axis1 (y : S1000x512.Idx) (q : dot_S1000x2048_S2048x512_S1000x512_1_0_0_1_n_n.contr.Idx) :
    (dot_S1000x2048_S2048x512_S1000x512_1_0_0_1_n_n.rhsIdx y q 1).val = (y 1).val := by
  unfold DotDims.rhsIdx
  rw [dif_neg (show ¬(1 : Fin S2048x512.rank) ∈ dot_S1000x2048_S2048x512_S1000x512_1_0_0_1_n_n.rhsBatch by decide), dif_pos (show (1 : Fin S2048x512.rank) ∈ dot_S1000x2048_S2048x512_S1000x512_1_0_0_1_n_n.rhsNonContracting by decide)]
  rfl

/-- The body's stored value at entry `(p, j)`: the narrowing of the operands is the identity and the accumulator is
    zero, so it is `∑ k, xblock[p, k] · w[k, j]`. -/
theorem pay_apply (x0 : Vec Ideal S1000x2048 .f32) (x1 : Vec Ideal S2048x512 .f32) (y : S1000x512.Idx) :
    k0_pay1 (F := Ideal) x0 x1 y
      = ∑ k : Fin 2048, x0 (ix2 (⟨(y 0).val, idx2_lt0 y⟩ : Fin 1000) k) * x1 (ix2 k (⟨(y 1).val, idx2_lt1 y⟩ : Fin 512)) := by
  unfold k0_pay1
  simp only [matmul]
  rw [Ideal.matmul_constant_zero_apply, ← Equiv.sum_comp (ValueIdx.contrEquiv1 dot_S1000x2048_S2048x512_S1000x512_1_0_0_1_n_n 2048 rfl rfl).symm]
  refine Finset.sum_congr rfl fun k _ => ?_
  have hk := ValueIdx.contrEquiv1_symm_val dot_S1000x2048_S2048x512_S1000x512_1_0_0_1_n_n 2048 rfl rfl k
  have el : dot_S1000x2048_S2048x512_S1000x512_1_0_0_1_n_n.lhsIdx y ((ValueIdx.contrEquiv1 dot_S1000x2048_S2048x512_S1000x512_1_0_0_1_n_n 2048 rfl rfl).symm k) = ix2 (⟨(y 0).val, idx2_lt0 y⟩ : Fin 1000) k := funext fun a => Fin.ext (by
    match a with
    | ⟨0, _⟩ => exact lhs_axis0 _ _
    | ⟨1, _⟩ => exact (lhs_axis1 _ _).trans hk)
  have er : dot_S1000x2048_S2048x512_S1000x512_1_0_0_1_n_n.rhsIdx y ((ValueIdx.contrEquiv1 dot_S1000x2048_S2048x512_S1000x512_1_0_0_1_n_n 2048 rfl rfl).symm k) = ix2 k (⟨(y 1).val, idx2_lt1 y⟩ : Fin 512) := funext fun a => Fin.ext (by
    match a with
    | ⟨0, _⟩ => exact (rhs_axis0 _ _).trans hk
    | ⟨1, _⟩ => exact rhs_axis1 _ _)
  rw [el, er]
  rfl

/-! ## From the row blocks to the array -/

variable (m : (ℓ : Loc nD τ sig) → Buf (Elt Ideal) ℓ)

/-- The node features and the weights as the region finds them, and a grid point's blocks of the two, at their literal
    shapes. -/
abbrev xarr (c : Dev nD) : Vec Ideal S50000x2048 .f32 := V m c main_arg0
abbrev warr (c : Dev nD) : Vec Ideal S2048x512 .f32 := V m c main_arg2
abbrev xblk (c : Dev nD) (t : Fin cfg0.N) : Vec Ideal S1000x2048 .f32 := iblk m c 0 t
abbrev wblk (c : Dev nD) (t : Fin cfg0.N) : Vec Ideal S2048x512 .f32 := iblk m c 1 t

theorem hz : (![0, 0] : Fin 2 → Nat) = fun _ => 0 := funext fun a => by fin_cases a <;> rfl

/-- The index maps over the grid: point `t` takes row block `t` of the features and of the result, and block (0, 0),
    which is all, of the weights. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of point `t`'s feature block is entry `(1000 t + p, k)` of the features. -/
theorem xblk_apply (c : Dev nD) (t : Fin cfg0.N) (y : S1000x2048.Idx) (i : S50000x2048.Idx)
    (h0 : (i 0).val = 1000 * t.val + (y 0).val) (h1 : (i 1).val = (y 1).val) :
    xblk m c t y = xarr m c i := by
  obtain ⟨e0, e1, -⟩ := idx_facts t
  show iblk m c 0 t y = V m c main_arg0 i
  unfold iblk
  rw [View.read_apply]
  show V m c main_arg0 _ = V m c main_arg0 _
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 2048 + 1 * (y 1).val = (i 1).val; rw [e1, h1]; omega

/-- Every point's weight block is the weight matrix. -/
theorem wblk_apply (c : Dev nD) (t : Fin cfg0.N) (y : S2048x512.Idx) : wblk m c t y = warr m c y := by
  obtain ⟨-, -, e2, e3, -⟩ := idx_facts t
  show iblk m c 1 t y = V m c main_arg2 y
  unfold iblk
  rw [View.read_apply]
  show V m c main_arg2 _ = V m c main_arg2 _
  congr 1
  funext a
  apply Fin.ext
  match a with
  | ⟨0, _⟩ => show win0_1.index t (0 : Fin 2) * 2048 + 1 * (y 0).val = (y 0).val; rw [e2]; omega
  | ⟨1, _⟩ => show win0_1.index t (1 : Fin 2) * 512 + 1 * (y 1).val = (y 1).val; rw [e3]; omega

/-- WHAT POINT `t` WRITES BACK is row block `t` of `x · w`. -/
theorem flushed_eq (c : Dev nD) (t : Fin cfg0.N) :
    (dats m 0 c).flushed 2 t = ((cfg0.win 2).blk t).view.read (Elt Ideal) (Cert.Gcn.dense (xarr m c) (warr m c)) := by
  show (cfg0.win 2).cut (grid0.coords t) ((dats m 0 c).after 2 t) = _
  rw [after0_2]
  unfold out0_2
  rw [View.canon_unit_zero hz]
  simp only [View.ld_unit_zero (S := S1000x2048) hz, View.ld_unit_zero (S := S2048x512) hz]
  obtain ⟨-, -, -, -, e4, e5⟩ := idx_facts t
  funext j
  show k0_pay1 (F := Ideal) (xblk m c t) (wblk m c t) j = Cert.Gcn.dense (xarr m c) (warr m c) (((cfg0.win 2).blk t).view.emb j)
  refine (pay_apply (xblk m c t) (wblk m c t) j).trans ?_
  rw [Cert.Gcn.dense_apply]
  refine Finset.sum_congr rfl fun k _ => ?_
  have hj0 : (j 0).val < 1000 := (j 0).isLt
  have r0 : ((((cfg0.win 2).blk t).view.emb j) 0).val = win0_2.index t (0 : Fin 2) * 1000 + 1 * (j 0).val := rfl
  have r1 : ((((cfg0.win 2).blk t).view.emb j) 1).val = win0_2.index t (1 : Fin 2) * 512 + 1 * (j 1).val := rfl
  rw [xblk_apply m c t _ (ix2 (⟨((((cfg0.win 2).blk t).view.emb j) 0).val, idx2_lt0 _⟩ : Fin 50000) k)
      (by show ((((cfg0.win 2).blk t).view.emb j) 0).val = 1000 * t.val + (j 0).val; rw [r0, e4]; omega) rfl,
    wblk_apply m c t]
  refine congrArg (fun q => xarr m c _ * warr m c q) ?_
  funext a
  apply Fin.ext
  match a with
  | ⟨0, _⟩ => rfl
  | ⟨1, _⟩ => show (j 1).val = ((((cfg0.win 2).blk t).view.emb j) 1).val; rw [r1, e5]; omega

/-- An index of the result array is in point `t`'s block iff each coordinate is in the block's range on its axis. -/
theorem mem_blk (t : Fin cfg0.N) (i : S50000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v30).slice (win0_2.rect t)).set ↔ _
  rw [View.set_slice_whole, Rect.mem_set_unit]
  exact Iff.rfl

/-- Row `r` of the result lies in the block of point `r / 1000`: the fifty blocks tile the array. -/
theorem cover (i : S50000x512.Idx) :
    ∃ t : Fin cfg0.N, (cfg0.win 2).flush t = true ∧ i ∈ ((cfg0.win 2).blk t).view.set := by
  have hN : cfg0.N = 50 := N_0
  have hi0 : (i 0).val < 50000 := (i 0).isLt
  have hi1 : (i 1).val < 512 := (i 1).isLt
  let t : Fin cfg0.N := ⟨(i 0).val / 1000, by rw [hN]; omega⟩
  obtain ⟨-, -, -, -, e4, e5⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; rw [e4, ht]; omega
  | ⟨1, _⟩ => show win0_2.index t (1 : Fin 2) * 512 ≤ (i 1).val ∧ (i 1).val < win0_2.index t (1 : Fin 2) * 512 + 512; rw [e5]; omega

/-- THE ARRAY `h` after the region is `x · w` of the argument arrays. -/
theorem final (c : Dev nD) :
    (dats m 0 c).arrAt 2 cfg0.N
      = Cert.Gcn.dense (m ((c : Thread nD τ).loc main_arg0)) (m ((c : Thread nD τ).loc main_arg2)) := by
  have h := (dats m 0 c).arrAt_eq_of_cover 2 (Cert.Gcn.dense (xarr m c) (warr m c)) (fun t _ => flushed_eq m c t) cover
  rw [h]
  show Cert.Gcn.dense (V m c main_arg0) (V m c main_arg2) = _
  rw [V_main_arg0, V_main_arg2]

end Cert.KernelIdeal.Dense

end
-- ==== Proof.Propagate.lean ====
/-
  The graph convolution around the dense layer, as functions of the arrays (both programs apply these same host
  operations; only the dense layer `h = x · w` between them is computed differently).

  From the edge list `e : [2, 400000]`: the message sources `src e` and targets `dst e` are the two rows of `e`, each
  followed by the 50000 self-loops `0 … 49999`; `degree` counts, per node, the edges arriving there;
  `invSqrtDeg` is `degree^(-1/2)` where the degree is positive and `0` elsewhere; the edge weight `norm` is the
  product of that at the edge's two ends (a negative node index is first wrapped by the node count, jnp's
  indexing convention). From the transformed features `h`: `messages` scales row `src` of `h` by the edge's weight,
  `aggregate` adds each message into the row of its target, `addBias` adds the bias to every row and
  `logSoftmax` is `z - max z - log (∑ exp (z - max z))` along each row.
-/
import proofs.«169280_j30288109371814_1_alg».proof.ReferenceIdeal
import proofs.«169280_j30288109371814_1_alg».proof.Proof.Gen.ReferenceIdeal

noncomputable section

namespace Cert.ReferenceIdeal.Gcn

open Cert.ReferenceIdeal Cert.ReferenceIdeal.Facts₀ Idealize.ShloMosaic

variable {F : FTy → Type} [FloatOps F]

/-- Row 0 of the edge list followed by the self-loops: where each message comes from. -/
def src (e : (⟨S2x400000, .i32⟩ : BufTy).Contents (Elt F)) : (⟨S450000, .i32⟩ : BufTy).Contents (Elt F) :=
  concatenate S450000 0 [⟨S400000, (shapeCast _ (extractStridedSlice S1x400000 ![0, 0] e slices_S2x400000_S1x400000_0_0) shapeCasts_S1x400000_S400000)⟩, ⟨S50000, (iotaInDim S50000 32 0)⟩] concatenates_S400000_S50000_S450000_d0

/-- Row 1 of the edge list followed by the self-loops: where each message is added. -/
def dst (e : (⟨S2x400000, .i32⟩ : BufTy).Contents (Elt F)) : (⟨S450000, .i32⟩ : BufTy).Contents (Elt F) :=
  concatenate S450000 0 [⟨S400000, (shapeCast _ (extractStridedSlice S1x400000 ![1, 0] e slices_S2x400000_S1x400000_1_0) shapeCasts_S1x400000_S400000)⟩, ⟨S50000, (iotaInDim S50000 32 0)⟩] concatenates_S400000_S50000_S450000_d0

/-- A node index, a negative one moved up by the node count. -/
def wrap (v : (⟨S450000, .i32⟩ : BufTy).Contents (Elt F)) : (⟨S450000, .i32⟩ : BufTy).Contents (Elt F) :=
  select (cmpi .slt v (broadcastInDim S450000 ![] bcast_S_S450000 (constantI S_ 32 0#32))) (addi v (broadcastInDim S450000 ![] bcast_S_S450000 (constantI S_ 32 50000#32))) v

/-- An index vector as the one-column matrix a gather or scatter takes. -/
def col (v : (⟨S450000, .i32⟩ : BufTy).Contents (Elt F)) : (⟨S450000x1, .i32⟩ : BufTy).Contents (Elt F) :=
  broadcastInDim S450000x1 ![0] bcast_S450000_S450000x1_0 v

/-- The number of edges (self-loop included) arriving at each node: ones added at the targets `d`. -/
def degree (d : (⟨S450000, .i32⟩ : BufTy).Contents (Elt F)) : (⟨S50000, .f32⟩ : BufTy).Contents (Elt F) :=
  Host.scatterAdd scatter_S50000_S450000x1_S450000_n_0_0_1 (broadcastInDim S50000 ![] bcast_S_S50000 (constant S_ .f32 0x00000000#32)) (col d) (broadcastInDim S450000 ![] bcast_S_S450000 (constant S_ .f32 0x3F800000#32))

/-- `degree^(-1/2)` where the degree is positive, `0` elsewhere. -/
def invSqrtDeg (d : (⟨S450000, .i32⟩ : BufTy).Contents (Elt F)) : (⟨S50000, .f32⟩ : BufTy).Contents (Elt F) :=
  select (cmpf (F := F) .ogt (degree (F := F) d) (broadcastInDim S50000 ![] bcast_S_S50000 (constant S_ .f32 0x00000000#32))) (Host.rsqrt (degree (F := F) d)) (broadcastInDim S50000 ![] bcast_S_S50000 (id (constant S_ .f32 0x00000000#32)))

/-- The symmetric normalization of each edge: `invSqrtDeg` at its source times `invSqrtDeg` at its target. -/
def norm (s d : (⟨S450000, .i32⟩ : BufTy).Contents (Elt F)) : (⟨S450000, .f32⟩ : BufTy).Contents (Elt F) :=
  mulf (Host.gather gather_S50000_S450000x1_S450000_n_0_n_n_0_1_1 (invSqrtDeg (F := F) d) (col (wrap s)))
    (Host.gather gather_S50000_S450000x1_S450000_n_0_n_n_0_1_1 (invSqrtDeg (F := F) d) (col (wrap d)))

/-- Each edge's message: row `s` of the transformed features scaled by the edge's weight `n`. -/
def messages (n : (⟨S450000, .f32⟩ : BufTy).Contents (Elt F)) (s : (⟨S450000, .i32⟩ : BufTy).Contents (Elt F))
    (h : (⟨S50000x512, .f32⟩ : BufTy).Contents (Elt F)) : (⟨S450000x512, .f32⟩ : BufTy).Contents (Elt F) :=
  mulf (broadcastInDim S450000x512 ![0, 1] bcast_S450000x1_S450000x512_0_1 (broadcastInDim S450000x1 ![0] bcast_S450000_S450000x1_0 n))
    (Host.gather gather_S50000x512_S450000x1_S450000x512_1_0_n_n_0_1_1512 h (col (wrap s)))

/-- The messages added into the rows of their targets `d`. -/
def aggregate (d : (⟨S450000, .i32⟩ : BufTy).Contents (Elt F)) (msg : (⟨S450000x512, .f32⟩ : BufTy).Contents (Elt F)) :
    (⟨S50000x512, .f32⟩ : BufTy).Contents (Elt F) :=
  Host.scatterAdd scatter_S50000x512_S450000x1_S450000x512_1_0_0_1 (broadcastInDim S50000x512 ![] bcast_S_S50000x512 (constant S_ .f32 0x00000000#32)) (col d) msg

/-- The bias added to every row. -/
def addBias (z : (⟨S50000x512, .f32⟩ : BufTy).Contents (Elt F)) (b : (⟨S512, .f32⟩ : BufTy).Contents (Elt F)) :
    (⟨S50000x512, .f32⟩ : BufTy).Contents (Elt F) :=
  addf z (broadcastInDim S50000x512 ![0, 1] bcast_S1x512_S50000x512_0_1 (broadcastInDim S1x512 ![1] bcast_S512_S1x512_1 b))

/-- The maximum of each row (the fold of `max` from `-∞`). -/
def rowMax (z : (⟨S50000x512, .f32⟩ : BufTy).Contents (Elt F)) : (⟨S50000, .f32⟩ : BufTy).Contents (Elt F) :=
  Host.reduce FloatOps.maximumf z (constant S_ .f32 0xFF800000#32) reducesTo_S50000x512_S50000_d1 h_S_

/-- Each row less `max (-∞) r` of its entry of `r`. -/
def shiftedBy (z : (⟨S50000x512, .f32⟩ : BufTy).Contents (Elt F)) (r : (⟨S50000, .f32⟩ : BufTy).Contents (Elt F)) :
    (⟨S50000x512, .f32⟩ : BufTy).Contents (Elt F) :=
  subf z (broadcastInDim S50000x512 ![0, 1] bcast_S50000x1_S50000x512_0_1 (broadcastInDim S50000x1 ![0] bcast_S50000_S50000x1_0
    (maximumf (broadcastInDim S50000 ![] bcast_S_S50000 (constant S_ .f32 0xFF800000#32)) r)))

/-- Each row less its maximum. -/
def shifted (z : (⟨S50000x512, .f32⟩ : BufTy).Contents (Elt F)) : (⟨S50000x512, .f32⟩ : BufTy).Contents (Elt F) :=
  shiftedBy z (rowMax (F := F) z)

/-- A shifted row less the logarithm of the sum of its exponentials. -/
def lessLogSumExp (s : (⟨S50000x512, .f32⟩ : BufTy).Contents (Elt F)) : (⟨S50000x512, .f32⟩ : BufTy).Contents (Elt F) :=
  subf s (broadcastInDim S50000x512 ![0, 1] bcast_S50000x1_S50000x512_0_1 (Host.log (broadcastInDim S50000x1 ![0] bcast_S50000_S50000x1_0
    (Host.reduceAdd (Host.exp s) (constant S_ .f32 0x00000000#32) reducesTo_S50000x512_S50000_d1 h_S_))))

/-- The row-wise log-softmax: `z - max z - log ∑ exp (z - max z)`. -/
def logSoftmax (z : (⟨S50000x512, .f32⟩ : BufTy).Contents (Elt F)) : (⟨S50000x512, .f32⟩ : BufTy).Contents (Elt F) :=
  lessLogSumExp (shifted (F := F) z)

/-- Everything after the dense layer: from the edge weights `n`, the sources `s`, the targets `d`, the transformed
    features `h` and the bias `b` to the result. -/
def propagate (n : (⟨S450000, .f32⟩ : BufTy).Contents (Elt F)) (s d : (⟨S450000, .i32⟩ : BufTy).Contents (Elt F))
    (h : (⟨S50000x512, .f32⟩ : BufTy).Contents (Elt F)) (b : (⟨S512, .f32⟩ : BufTy).Contents (Elt F)) :
    (⟨S50000x512, .f32⟩ : BufTy).Contents (Elt F) :=
  logSoftmax (addBias (aggregate d (messages n s h)) b)

/-- The whole layer from the edge list, the transformed features and the bias. -/
def layer (e : (⟨S2x400000, .i32⟩ : BufTy).Contents (Elt F)) (h : (⟨S50000x512, .f32⟩ : BufTy).Contents (Elt F))
    (b : (⟨S512, .f32⟩ : BufTy).Contents (Elt F)) : (⟨S50000x512, .f32⟩ : BufTy).Contents (Elt F) :=
  propagate (norm (F := F) (src e) (dst e)) (src (F := F) e) (dst (F := F) e) h b

end Cert.ReferenceIdeal.Gcn

end
-- ==== Proof.KernelPropagate.lean ====
/-
  The kernel program's host operations around its region, read as the graph convolution's functions
  (`Cert.ReferenceIdeal.Gcn`): before the region they compute the message sources, the targets and the edge
  weights from the edge list; after it they turn the transformed features the region left into the result.
  Each stretch of operations is read from ANY buffer contents `W` it starts from: what it leaves in one buffer is a
  function of what `W` held in the buffers it reads.
-/
import proofs.«169280_j30288109371814_1_alg».proof.Proof.Gen.KernelIdeal.Frame
import proofs.«169280_j30288109371814_1_alg».proof.Proof.Propagate
import Idealize.ShloMosaic.Lib.StableHlo.Run
import Idealize.ShloMosaic.Lib.Pipeline.Frame

noncomputable section

open Idealize.ShloMosaic Idealize.ShloMosaic.TcCoe Idealize.SL.Sem Idealize.ShloMosaic.StableHlo

namespace Cert.KernelIdeal.Around

open Cert.KernelIdeal Cert.KernelIdeal.Gen
open Cert.ReferenceIdeal (Gcn.src Gcn.dst Gcn.norm Gcn.propagate Gcn.addBias Gcn.aggregate Gcn.messages Gcn.logSoftmax Gcn.shifted Gcn.rowMax Gcn.shiftedBy Gcn.lessLogSumExp)

variable {F : FTy → Type} [FloatOps F]

/-! ## Before the region: the first seven operations build the two index vectors -/

/-- The message sources are `src` of the edge list. -/
theorem src_of (W : Valuation τ sig (Elt F)) :
    StableHlo.after ((List.flatten [hostOps0 (F := F), hostOps0_1, hostOps0_2]).take 7) W (Proc.devRef .tc main_v3) = Gcn.src (F := F) (W (Proc.devRef .tc main_arg1)) := by
  simp only [hostOps0, hostOps0_1, hostOps0_2, List.flatten_cons, List.flatten_nil, List.append_nil, List.cons_append, List.nil_append, List.take_succ_cons, List.take_zero, List.drop_succ_cons, List.drop_zero]
  after_results_simp
  rfl

/-- The targets are `dst` of the edge list. -/
theorem dst_of (W : Valuation τ sig (Elt F)) :
    StableHlo.after ((List.flatten [hostOps0 (F := F), hostOps0_1, hostOps0_2]).take 7) W (Proc.devRef .tc main_v6) = Gcn.dst (F := F) (W (Proc.devRef .tc main_arg1)) := by
  simp only [hostOps0, hostOps0_1, hostOps0_2, List.flatten_cons, List.flatten_nil, List.append_nil, List.cons_append, List.nil_append, List.take_succ_cons, List.take_zero, List.drop_succ_cons, List.drop_zero]
  after_results_simp
  rfl

/-! ## Before the region: the other operations compute the edge weights from the two index vectors -/

set_option maxHeartbeats 4000000 in
/-- The edge weights are `norm` of the sources and the targets. -/
theorem norm_of (W : Valuation τ sig (Elt F)) :
    StableHlo.after ((List.flatten [hostOps0 (F := F), hostOps0_1, hostOps0_2]).drop 7) W (Proc.devRef .tc main_v29)
      = Gcn.norm (F := F) (W (Proc.devRef .tc main_v3)) (W (Proc.devRef .tc main_v6)) := by
  simp only [hostOps0, hostOps0_1, hostOps0_2, List.flatten_cons, List.flatten_nil, List.append_nil, List.cons_append, List.nil_append, List.take_succ_cons, List.take_zero, List.drop_succ_cons, List.drop_zero]
  after_results_simp
  try simp only [TRef.ofBuf, TRef.toBuf, cast_eq]
  rfl

set_option maxHeartbeats 4000000 in
/-- They leave the sources as they were, -/
theorem src_kept (W : Valuation τ sig (Elt F)) :
    StableHlo.after ((List.flatten [hostOps0 (F := F), hostOps0_1, hostOps0_2]).drop 7) W (Proc.devRef .tc main_v3) = W (Proc.devRef .tc main_v3) := by
  simp only [hostOps0, hostOps0_1, hostOps0_2, List.flatten_cons, List.flatten_nil, List.append_nil, List.cons_append, List.nil_append, List.take_succ_cons, List.take_zero, List.drop_succ_cons, List.drop_zero]
  after_results_simp

set_option maxHeartbeats 4000000 in
/-- and the targets. -/
theorem dst_kept (W : Valuation τ sig (Elt F)) :
    StableHlo.after ((List.flatten [hostOps0 (F := F), hostOps0_1, hostOps0_2]).drop 7) W (Proc.devRef .tc main_v6) = W (Proc.devRef .tc main_v6) := by
  simp only [hostOps0, hostOps0_1, hostOps0_2, List.flatten_cons, List.flatten_nil, List.append_nil, List.cons_append, List.nil_append, List.take_succ_cons, List.take_zero, List.drop_succ_cons, List.drop_zero]
  after_results_simp

/-- The operations before the region, the first seven and then the rest. -/
theorem before_split (W : Valuation τ sig (Elt F)) :
    StableHlo.after (List.flatten [hostOps0 (F := F), hostOps0_1, hostOps0_2]) W = StableHlo.after ((List.flatten [hostOps0 (F := F), hostOps0_1, hostOps0_2]).drop 7) (StableHlo.after ((List.flatten [hostOps0 (F := F), hostOps0_1, hostOps0_2]).take 7) W) := by
  conv_lhs => rw [← List.take_append_drop 7 (List.flatten [hostOps0 (F := F), hostOps0_1, hostOps0_2])]
  exact StableHlo.after_append _ _ _

variable (m : (ℓ : Loc nD τ sig) → Buf (Elt F) ℓ)

/-- What the region finds: the sources, -/
theorem V_src (c : Dev nD) : V m c main_v3 = Gcn.src (F := F) (m ((c : Thread nD τ).loc main_arg1)) := by
  show StableHlo.after (List.flatten [hostOps0 (F := F), hostOps0_1, hostOps0_2]) (fun b => m (c, b)) (Proc.devRef .tc main_v3) = _
  rw [before_split, src_kept, src_of]
/-- the targets, -/
theorem V_dst (c : Dev nD) : V m c main_v6 = Gcn.dst (F := F) (m ((c : Thread nD τ).loc main_arg1)) := by
  show StableHlo.after (List.flatten [hostOps0 (F := F), hostOps0_1, hostOps0_2]) (fun b => m (c, b)) (Proc.devRef .tc main_v6) = _
  rw [before_split, dst_kept, dst_of]
/-- the edge weights. -/
theorem V_norm (c : Dev nD) :
    V m c main_v29 = Gcn.norm (F := F) (Gcn.src (m ((c : Thread nD τ).loc main_arg1))) (Gcn.dst (m ((c : Thread nD τ).loc main_arg1))) := by
  show StableHlo.after (List.flatten [hostOps0 (F := F), hostOps0_1, hostOps0_2]) (fun b => m (c, b)) (Proc.devRef .tc main_v29) = _
  rw [before_split, norm_of, src_of, dst_of]

/-! ## After the region -/

set_option maxHeartbeats 4000000 in
/-- The messages, aggregated at their targets, plus the bias. -/
theorem sum_of (W : Valuation τ sig (Elt F)) :
    StableHlo.after hostOps1 W (Proc.devRef .tc main_v46)
      = Gcn.addBias (F := F) (Gcn.aggregate (W (Proc.devRef .tc main_v6)) (Gcn.messages (W (Proc.devRef .tc main_v29)) (W (Proc.devRef .tc main_v3)) (W (Proc.devRef .tc main_v30)))) (W (Proc.devRef .tc main_arg3)) := by
  simp only [hostOps1]
  after_results_simp
  rfl

/-! ## After the region: the row-wise log-softmax, in three stretches -/

/-- The first two operations fold `max` along each row, -/
theorem rowMax_of (W : Valuation τ sig (Elt F)) :
    StableHlo.after (hostOps1_1.take 2) W (Proc.devRef .tc main_call1_v0) = Gcn.rowMax (F := F) (W (Proc.devRef .tc main_v46)) := by
  simp only [hostOps1_1, List.take_succ_cons, List.take_zero, List.drop_succ_cons, List.drop_zero]
  after_results_simp
  try simp only [TRef.ofBuf, TRef.toBuf, cast_eq]
  try rfl

/-- leaving their operand as it was; -/
theorem rowMax_kept (W : Valuation τ sig (Elt F)) :
    StableHlo.after (hostOps1_1.take 2) W (Proc.devRef .tc main_v46) = W (Proc.devRef .tc main_v46) := by
  simp only [hostOps1_1, List.take_succ_cons, List.take_zero, List.drop_succ_cons, List.drop_zero]
  after_results_simp

/-- the next six subtract the row maxima; -/
theorem shifted_of (W : Valuation τ sig (Elt F)) :
    StableHlo.after ((hostOps1_1.drop 2).take 6) W (Proc.devRef .tc main_call1_v5)
      = Gcn.shiftedBy (F := F) (W (Proc.devRef .tc main_v46)) (W (Proc.devRef .tc main_call1_v0)) := by
  simp only [hostOps1_1, List.take_succ_cons, List.take_zero, List.drop_succ_cons, List.drop_zero]
  after_results_simp
  try simp only [TRef.ofBuf, TRef.toBuf, cast_eq]
  try rfl

/-- the last seven subtract the logarithm of each row's sum of exponentials. -/
theorem lessLogSumExp_of (W : Valuation τ sig (Elt F)) :
    StableHlo.after (hostOps1_1.drop 8) W (Proc.devRef .tc main_v47) = Gcn.lessLogSumExp (F := F) (W (Proc.devRef .tc main_call1_v5)) := by
  simp only [hostOps1_1, List.take_succ_cons, List.take_zero, List.drop_succ_cons, List.drop_zero]
  after_results_simp
  try simp only [TRef.ofBuf, TRef.toBuf, cast_eq]
  try rfl

/-- The fifteen together are the log-softmax of what the buffer before them held. -/
theorem softmax_of (W : Valuation τ sig (Elt F)) :
    StableHlo.after hostOps1_1 W (Proc.devRef .tc main_v47) = Gcn.logSoftmax (F := F) (W (Proc.devRef .tc main_v46)) := by
  have e : hostOps1_1 (F := F) = hostOps1_1.take 2 ++ ((hostOps1_1.drop 2).take 6 ++ hostOps1_1.drop 8) := by
    simp only [hostOps1_1, List.take_succ_cons, List.take_zero, List.drop_succ_cons, List.drop_zero, List.cons_append, List.nil_append]
  rw [e, StableHlo.after_append, StableHlo.after_append, lessLogSumExp_of, shifted_of, rowMax_kept, rowMax_of]
  rfl

/-- Everything after the region: `propagate` of the edge weights, sources, targets, transformed features and bias found in `W`. -/
theorem result_of (W : Valuation τ sig (Elt F)) :
    StableHlo.after (List.flatten [hostOps1 (F := F), hostOps1_1]) W (Proc.devRef .tc main_v47)
      = Gcn.propagate (F := F) (W (Proc.devRef .tc main_v29)) (W (Proc.devRef .tc main_v3)) (W (Proc.devRef .tc main_v6))
          (W (Proc.devRef .tc main_v30)) (W (Proc.devRef .tc main_arg3)) := by
  simp only [List.flatten_cons, List.flatten_nil, List.append_nil]
  rw [StableHlo.after_append, softmax_of, sum_of]
  rfl

end Cert.KernelIdeal.Around

end
-- ==== Proof.KernelValue.lean ====
/-
  The kernel program's run at the extended reals, with its result named: the layer of the edge list, of
  `x · w` (what the region's fifty row blocks leave in the transformed-features array) and of the bias.
-/
import proofs.«169280_j30288109371814_1_alg».proof.Proof.KernelDense
import proofs.«169280_j30288109371814_1_alg».proof.Proof.KernelPropagate

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen
open Cert.ReferenceIdeal (Gcn.layer Gcn.propagate Gcn.norm Gcn.src Gcn.dst)

variable (m : (ℓ : Loc nD τ sig) → Buf (Elt Ideal) ℓ) (ρ : Dev nD → PrngReg)

/-- What the operations after the region leave in the result buffer: they read the edge weights, the sources, the
    targets and the bias as the region found them, and the transformed features as the region left them. -/
theorem tail_eq (c : Dev nD) :
    Pipeline.afterTail₀ cfgs (dats m) 0 (V0 m) [hostOps1, hostOps1_1] c main_v47
      = Gcn.layer (F := Ideal) (m ((c : Thread nD τ).loc main_arg1))
          (Cert.Gcn.dense (m ((c : Thread nD τ).loc main_arg0)) (m ((c : Thread nD τ).loc main_arg2)))
          (m ((c : Thread nD τ).loc main_arg3)) := by
  unfold Pipeline.afterTail₀
  rw [Around.result_of]
  have h29 : Pipeline.withArrays (cfgs 0).spec c (V0 m c) (fun w => (dats m 0 c).arrAt w (cfgs 0).N) (Proc.devRef .tc main_v29) = V m c main_v29 :=
    Pipeline.withArrays_of_ne _ c (V0 m c) _ main_v29 (by exact (by decide : ∀ w, Pipeline.arrRef spec0 w ≠ main_v29))
  have h3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have h6 : Pipeline.withArrays (cfgs 0).spec c (V0 m c) (fun w => (dats m 0 c).arrAt w (cfgs 0).N) (Proc.devRef .tc main_v6) = V m c main_v6 :=
    Pipeline.withArrays_of_ne _ c (V0 m c) _ main_v6 (by exact (by decide : ∀ w, Pipeline.arrRef spec0 w ≠ main_v6))
  have hb : Pipeline.withArrays (cfgs 0).spec c (V0 m c) (fun w => (dats m 0 c).arrAt w (cfgs 0).N) (Proc.devRef .tc main_arg3) = V m c main_arg3 :=
    Pipeline.withArrays_of_ne _ c (V0 m c) _ main_arg3 (by exact (by decide : ∀ w, Pipeline.arrRef spec0 w ≠ main_arg3))
  have h30 : Pipeline.withArrays (cfgs 0).spec c (V0 m c) (fun w => (dats m 0 c).arrAt w (cfgs 0).N) (Proc.devRef .tc main_v30) = (dats m 0 c).arrAt 2 cfg0.N :=
    Pipeline.withArrays_arr spec0 launch0.win.arr_inj c _ _ 2
  rw [h29, h3, h6, hb, h30, Around.V_norm, Around.V_src, Around.V_dst, V_main_arg3, Dense.final]
  rfl

/-- THE RUN, READ: every weakly fair execution of the kernel program terminates with the result buffer at the layer
    of the arguments and the arguments unchanged. -/
theorem run : θ_run defs (onTc (τ := τ) (main (F := Ideal))) ⟨m, fun _ => 0, ρ⟩ (fun r => ∀ c : Dev nD,
      r.2.mem ((c.tc : Thread nD τ).loc main_v47)
        = Gcn.layer (F := Ideal) (m ((c.tc : Thread nD τ).loc main_arg1))
            (Cert.Gcn.dense (m ((c.tc : Thread nD τ).loc main_arg0)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v47 (Pipeline.mem_restRefs_of main_v47 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.Whole

end
-- ==== Proof.RefRun.lean ====
/-
  The reference program's run, read as the graph convolution's functions (`Cert.ReferenceIdeal.Gcn`).

  The program is a straight line of 75 host operations. The first seven build the message sources and targets from
  the edge list; the next 34 compute the edge weights and, last of them, the dense layer `x · w` as ONE contraction
  of the whole arrays; the next 19 scale the gathered rows, add them at their targets and add the bias; the last 15 are
  the row-wise log-softmax. Each stretch is read from ANY buffer contents `W` it starts from (what it leaves in one
  buffer is a function of what `W` held in the buffers it reads), and the four are then put end to end.
-/
import proofs.«169280_j30288109371814_1_alg».proof.ReferenceIdeal
import proofs.«169280_j30288109371814_1_alg».proof.Proof.Gen.ReferenceIdeal
import proofs.«169280_j30288109371814_1_alg».proof.Proof.Propagate
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal (Gcn.src Gcn.dst Gcn.norm Gcn.propagate Gcn.addBias Gcn.aggregate Gcn.messages Gcn.logSoftmax Gcn.shifted Gcn.layer Gcn.rowMax Gcn.shiftedBy Gcn.lessLogSumExp)

variable {F : FTy → Type} [FloatOps F]

/-- @main's 75 operations, in order (a called function's operations stand in its call's place, spelt `TRef.…`). -/
abbrev ops : List (HloOp τ sig (Elt F)) :=
  [ nullary main_v0 (iotaInDim S50000 32 0),
    unary main_arg1 main_v1 ((extractStridedSlice S1x400000 ![0, 0] · slices_S2x400000_S1x400000_0_0) : (⟨S2x400000, .i32⟩ : BufTy).Contents (Elt F) → (⟨S1x400000, .i32⟩ : BufTy).Contents (Elt F)),
    reshape main_v1 main_v2 rfl shapeCasts_S1x400000_S400000,
    binary main_v2 main_v0 main_v3 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    unary main_arg1 main_v4 ((extractStridedSlice S1x400000 ![1, 0] · slices_S2x400000_S1x400000_1_0) : (⟨S2x400000, .i32⟩ : BufTy).Contents (Elt F) → (⟨S1x400000, .i32⟩ : BufTy).Contents (Elt F)),
    reshape main_v4 main_v5 rfl shapeCasts_S1x400000_S400000,
    binary main_v5 main_v0 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    nullary main_cst (constant S_ .f32 0x3F800000#32),
    unary main_cst main_v7 (broadcastInDim S450000 ![] bcast_S_S450000 : (⟨S_, .f32⟩ : BufTy).Contents (Elt F) → (⟨S450000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S450000x1 ![0] bcast_S450000_S450000x1_0 : (⟨S450000, .i32⟩ : BufTy).Contents (Elt F) → (⟨S450000x1, .i32⟩ : BufTy).Contents (Elt F)),
    ternary main_v8 main_v9 main_v7 main_v10 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S450000 ![] bcast_S_S450000 : (⟨S_, .i32⟩ : BufTy).Contents (Elt F) → (⟨S450000, .i32⟩ : BufTy).Contents (Elt F)),
    binary main_v3 main_v15 main_v16 (cmpi .slt : (⟨S450000, .i32⟩ : BufTy).Contents (Elt F) → (⟨S450000, .i32⟩ : BufTy).Contents (Elt F) → (⟨S450000, .i1⟩ : BufTy).Contents (Elt F)),
    nullary main_c_3 (constantI S_ 32 50000#32),
    unary main_c_3 main_v17 (broadcastInDim S450000 ![] bcast_S_S450000 : (⟨S_, .i32⟩ : BufTy).Contents (Elt F) → (⟨S450000, .i32⟩ : BufTy).Contents (Elt F)),
    binary main_v3 main_v17 main_v18 (addi : (⟨S450000, .i32⟩ : BufTy).Contents (Elt F) → (⟨S450000, .i32⟩ : BufTy).Contents (Elt F) → (⟨S450000, .i32⟩ : BufTy).Contents (Elt F)),
    ternary main_v16 main_v18 main_v3 main_v19 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v19 main_v20 (broadcastInDim S450000x1 ![0] bcast_S450000_S450000x1_0 : (⟨S450000, .i32⟩ : BufTy).Contents (Elt F) → (⟨S450000x1, .i32⟩ : BufTy).Contents (Elt F)),
    binary main_v14 main_v20 main_v21 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    nullary main_c_4 (constantI S_ 32 0#32),
    unary main_c_4 main_v22 (broadcastInDim S450000 ![] bcast_S_S450000 : (⟨S_, .i32⟩ : BufTy).Contents (Elt F) → (⟨S450000, .i32⟩ : BufTy).Contents (Elt F)),
    binary main_v6 main_v22 main_v23 (cmpi .slt : (⟨S450000, .i32⟩ : BufTy).Contents (Elt F) → (⟨S450000, .i32⟩ : BufTy).Contents (Elt F) → (⟨S450000, .i1⟩ : BufTy).Contents (Elt F)),
    nullary main_c_5 (constantI S_ 32 50000#32),
    unary main_c_5 main_v24 (broadcastInDim S450000 ![] bcast_S_S450000 : (⟨S_, .i32⟩ : BufTy).Contents (Elt F) → (⟨S450000, .i32⟩ : BufTy).Contents (Elt F)),
    binary main_v6 main_v24 main_v25 (addi : (⟨S450000, .i32⟩ : BufTy).Contents (Elt F) → (⟨S450000, .i32⟩ : BufTy).Contents (Elt F) → (⟨S450000, .i32⟩ : BufTy).Contents (Elt F)),
    ternary main_v23 main_v25 main_v6 main_v26 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v26 main_v27 (broadcastInDim S450000x1 ![0] bcast_S450000_S450000x1_0 : (⟨S450000, .i32⟩ : BufTy).Contents (Elt F) → (⟨S450000x1, .i32⟩ : BufTy).Contents (Elt F)),
    binary main_v14 main_v27 main_v28 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v21 main_v28 main_v29 (mulf : (⟨S450000, .f32⟩ : BufTy).Contents (Elt F) → (⟨S450000, .f32⟩ : BufTy).Contents (Elt F) → (⟨S450000, .f32⟩ : BufTy).Contents (Elt F)),
    binary main_arg0 main_arg2 main_v30 ((fun l r => Host.dotGeneral dot_S50000x2048_S2048x512_S50000x512_1_0_0_1_n_n none l r) : (⟨S50000x2048, .f32⟩ : BufTy).Contents (Elt F) → (⟨S2048x512, .f32⟩ : BufTy).Contents (Elt F) → (⟨S50000x512, .f32⟩ : BufTy).Contents (Elt F)),
    unary main_v29 main_v31 (broadcastInDim S450000x1 ![0] bcast_S450000_S450000x1_0 : (⟨S450000, .f32⟩ : BufTy).Contents (Elt F) → (⟨S450000x1, .f32⟩ : BufTy).Contents (Elt F)),
    nullary main_c_6 (constantI S_ 32 0#32),
    unary main_c_6 main_v32 (broadcastInDim S450000 ![] bcast_S_S450000 : (⟨S_, .i32⟩ : BufTy).Contents (Elt F) → (⟨S450000, .i32⟩ : BufTy).Contents (Elt F)),
    binary main_v3 main_v32 main_v33 (cmpi .slt : (⟨S450000, .i32⟩ : BufTy).Contents (Elt F) → (⟨S450000, .i32⟩ : BufTy).Contents (Elt F) → (⟨S450000, .i1⟩ : BufTy).Contents (Elt F)),
    nullary main_c_7 (constantI S_ 32 50000#32),
    unary main_c_7 main_v34 (broadcastInDim S450000 ![] bcast_S_S450000 : (⟨S_, .i32⟩ : BufTy).Contents (Elt F) → (⟨S450000, .i32⟩ : BufTy).Contents (Elt F)),
    binary main_v3 main_v34 main_v35 (addi : (⟨S450000, .i32⟩ : BufTy).Contents (Elt F) → (⟨S450000, .i32⟩ : BufTy).Contents (Elt F) → (⟨S450000, .i32⟩ : BufTy).Contents (Elt F)),
    ternary main_v33 main_v35 main_v3 main_v36 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v36 main_v37 (broadcastInDim S450000x1 ![0] bcast_S450000_S450000x1_0 : (⟨S450000, .i32⟩ : BufTy).Contents (Elt F) → (⟨S450000x1, .i32⟩ : BufTy).Contents (Elt F)),
    binary main_v30 main_v37 main_v38 ((fun x i => Host.gather gather_S50000x512_S450000x1_S450000x512_1_0_n_n_0_1_1512 x i) : (⟨S50000x512, .f32⟩ : BufTy).Contents (Elt F) → (⟨S450000x1, .i32⟩ : BufTy).Contents (Elt F) → (⟨S450000x512, .f32⟩ : BufTy).Contents (Elt F)),
    unary main_v31 main_v39 (broadcastInDim S450000x512 ![0, 1] bcast_S450000x1_S450000x512_0_1 : (⟨S450000x1, .f32⟩ : BufTy).Contents (Elt F) → (⟨S450000x512, .f32⟩ : BufTy).Contents (Elt F)),
    binary main_v39 main_v38 main_v40 (mulf : (⟨S450000x512, .f32⟩ : BufTy).Contents (Elt F) → (⟨S450000x512, .f32⟩ : BufTy).Contents (Elt F) → (⟨S450000x512, .f32⟩ : BufTy).Contents (Elt F)),
    nullary main_cst_8 (constant S_ .f32 0x00000000#32),
    unary main_cst_8 main_v41 (broadcastInDim S50000x512 ![] bcast_S_S50000x512 : (⟨S_, .f32⟩ : BufTy).Contents (Elt F) → (⟨S50000x512, .f32⟩ : BufTy).Contents (Elt F)),
    unary main_v6 main_v42 (broadcastInDim S450000x1 ![0] bcast_S450000_S450000x1_0 : (⟨S450000, .i32⟩ : BufTy).Contents (Elt F) → (⟨S450000x1, .i32⟩ : BufTy).Contents (Elt F)),
    ternary main_v41 main_v42 main_v40 main_v43 ((fun x i u => Host.scatterAdd scatter_S50000x512_S450000x1_S450000x512_1_0_0_1 x i u) : (⟨S50000x512, .f32⟩ : BufTy).Contents (Elt F) → (⟨S450000x1, .i32⟩ : BufTy).Contents (Elt F) → (⟨S450000x512, .f32⟩ : BufTy).Contents (Elt F) → (⟨S50000x512, .f32⟩ : BufTy).Contents (Elt F)),
    unary main_arg3 main_v44 (broadcastInDim S1x512 ![1] bcast_S512_S1x512_1 : (⟨S512, .f32⟩ : BufTy).Contents (Elt F) → (⟨S1x512, .f32⟩ : BufTy).Contents (Elt F)),
    unary main_v44 main_v45 (broadcastInDim S50000x512 ![0, 1] bcast_S1x512_S50000x512_0_1 : (⟨S1x512, .f32⟩ : BufTy).Contents (Elt F) → (⟨S50000x512, .f32⟩ : BufTy).Contents (Elt F)),
    binary main_v43 main_v45 main_v46 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call1_cst) (constant S_ .f32 0xFF800000#32),
    TRef.binary (TRef.of (T := ⟨S50000x512, .f32⟩) main_v46) (TRef.of (T := ⟨S_, .f32⟩) main_call1_cst) (TRef.of (T := ⟨S50000, .f32⟩) main_call1_v0) (fun x v => Host.reduce FloatOps.maximumf x v reducesTo_S50000x512_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x512, .f32⟩) main_call1_v4) (broadcastInDim S50000x512 ![0, 1] bcast_S50000x1_S50000x512_0_1),
    TRef.binary (TRef.of (T := ⟨S50000x512, .f32⟩) main_v46) (TRef.of (T := ⟨S50000x512, .f32⟩) main_call1_v4) (TRef.of (T := ⟨S50000x512, .f32⟩) main_call1_v5) subf,
    TRef.unary (TRef.of (T := ⟨S50000x512, .f32⟩) main_call1_v5) (TRef.of (T := ⟨S50000x512, .f32⟩) main_call1_v6) Host.exp,
    TRef.nullary (TRef.of (T := ⟨S_, .f32⟩) main_call1_cst_1) (constant S_ .f32 0x00000000#32),
    TRef.binary (TRef.of (T := ⟨S50000x512, .f32⟩) main_call1_v6) (TRef.of (T := ⟨S_, .f32⟩) main_call1_cst_1) (TRef.of (T := ⟨S50000, .f32⟩) main_call1_v7) (fun x v => Host.reduceAdd x v reducesTo_S50000x512_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x512, .f32⟩) main_call1_v10) (broadcastInDim S50000x512 ![0, 1] bcast_S50000x1_S50000x512_0_1),
    TRef.binary (TRef.of (T := ⟨S50000x512, .f32⟩) main_call1_v5) (TRef.of (T := ⟨S50000x512, .f32⟩) main_call1_v10) (TRef.of (T := ⟨S50000x512, .f32⟩) main_v47) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The first seven operations: the two index vectors -/

theorem src_of (W : Valuation τ sig (Elt F)) :
    StableHlo.after ((ops (F := F)).take 7) W (Proc.devRef .tc main_v3) = Gcn.src (F := F) (W (Proc.devRef .tc main_arg1)) := by
  simp only [ops, List.take_succ_cons, List.take_zero, List.drop_succ_cons, List.drop_zero]
  after_results_simp
  rfl

theorem dst_of (W : Valuation τ sig (Elt F)) :
    StableHlo.after ((ops (F := F)).take 7) W (Proc.devRef .tc main_v6) = Gcn.dst (F := F) (W (Proc.devRef .tc main_arg1)) := by
  simp only [ops, List.take_succ_cons, List.take_zero, List.drop_succ_cons, List.drop_zero]
  after_results_simp
  rfl

/-- They write none of the float arguments. -/
theorem head_kept (W : Valuation τ sig (Elt F)) :
    StableHlo.after ((ops (F := F)).take 7) W (Proc.devRef .tc main_arg0) = W (Proc.devRef .tc main_arg0)
    ∧ StableHlo.after ((ops (F := F)).take 7) W (Proc.devRef .tc main_arg2) = W (Proc.devRef .tc main_arg2)
    ∧ StableHlo.after ((ops (F := F)).take 7) W (Proc.devRef .tc main_arg3) = W (Proc.devRef .tc main_arg3) := by
  simp only [ops, List.take_succ_cons, List.take_zero, List.drop_succ_cons, List.drop_zero]
  refine ⟨?_, ?_, ?_⟩ <;> after_results_simp

/-! ## The next 34: the edge weights, and the dense layer -/

set_option maxHeartbeats 4000000 in
theorem norm_of (W : Valuation τ sig (Elt F)) :
    StableHlo.after (((ops (F := F)).drop 7).take 34) W (Proc.devRef .tc main_v29)
      = Gcn.norm (F := F) (W (Proc.devRef .tc main_v3)) (W (Proc.devRef .tc main_v6)) := by
  simp only [ops, List.take_succ_cons, List.take_zero, List.drop_succ_cons, List.drop_zero]
  after_results_simp
  try simp only [TRef.ofBuf, TRef.toBuf, cast_eq]
  rfl

set_option maxHeartbeats 4000000 in
/-- The dense layer is one contraction of the node features with the weights. -/
theorem dense_of (W : Valuation τ sig (Elt F)) :
    StableHlo.after (((ops (F := F)).drop 7).take 34) W (Proc.devRef .tc main_v30)
      = Host.dotGeneral dot_S50000x2048_S2048x512_S50000x512_1_0_0_1_n_n none (W (Proc.devRef .tc main_arg0)) (W (Proc.devRef .tc main_arg2)) := by
  simp only [ops, List.take_succ_cons, List.take_zero, List.drop_succ_cons, List.drop_zero]
  after_results_simp

set_option maxHeartbeats 4000000 in
/-- They leave the index vectors and the bias as they were. -/
theorem mid_kept (W : Valuation τ sig (Elt F)) :
    StableHlo.after (((ops (F := F)).drop 7).take 34) W (Proc.devRef .tc main_v3) = W (Proc.devRef .tc main_v3)
    ∧ StableHlo.after (((ops (F := F)).drop 7).take 34) W (Proc.devRef .tc main_v6) = W (Proc.devRef .tc main_v6)
    ∧ StableHlo.after (((ops (F := F)).drop 7).take 34) W (Proc.devRef .tc main_arg3) = W (Proc.devRef .tc main_arg3) := by
  simp only [ops, List.take_succ_cons, List.take_zero, List.drop_succ_cons, List.drop_zero]
  refine ⟨?_, ?_, ?_⟩ <;> after_results_simp

/-! ## The next 19: the messages, aggregated at their targets, plus the bias -/

set_option maxHeartbeats 4000000 in
theorem sum_of (W : Valuation τ sig (Elt F)) :
    StableHlo.after (((ops (F := F)).drop 41).take 19) W (Proc.devRef .tc main_v46)
      = Gcn.addBias (F := F) (Gcn.aggregate (W (Proc.devRef .tc main_v6)) (Gcn.messages (W (Proc.devRef .tc main_v29)) (W (Proc.devRef .tc main_v3)) (W (Proc.devRef .tc main_v30)))) (W (Proc.devRef .tc main_arg3)) := by
  simp only [ops, List.take_succ_cons, List.take_zero, List.drop_succ_cons, List.drop_zero]
  after_results_simp
  rfl

/-! ## The last 15: the row-wise log-softmax, in three stretches -/

theorem rowMax_of (W : Valuation τ sig (Elt F)) :
    StableHlo.after (((ops (F := F)).drop 60).take 2) W (Proc.devRef .tc main_call1_v0) = Gcn.rowMax (F := F) (W (Proc.devRef .tc main_v46)) := by
  simp only [ops, List.take_succ_cons, List.take_zero, List.drop_succ_cons, List.drop_zero]
  after_results_simp
  try simp only [TRef.ofBuf, TRef.toBuf, cast_eq]
  try rfl

theorem rowMax_kept (W : Valuation τ sig (Elt F)) :
    StableHlo.after (((ops (F := F)).drop 60).take 2) W (Proc.devRef .tc main_v46) = W (Proc.devRef .tc main_v46) := by
  simp only [ops, List.take_succ_cons, List.take_zero, List.drop_succ_cons, List.drop_zero]
  after_results_simp

theorem shifted_of (W : Valuation τ sig (Elt F)) :
    StableHlo.after (((ops (F := F)).drop 62).take 6) W (Proc.devRef .tc main_call1_v5)
      = Gcn.shiftedBy (F := F) (W (Proc.devRef .tc main_v46)) (W (Proc.devRef .tc main_call1_v0)) := by
  simp only [ops, List.take_succ_cons, List.take_zero, List.drop_succ_cons, List.drop_zero]
  after_results_simp
  try simp only [TRef.ofBuf, TRef.toBuf, cast_eq]
  try rfl

theorem lessLogSumExp_of (W : Valuation τ sig (Elt F)) :
    StableHlo.after ((ops (F := F)).drop 68) W (Proc.devRef .tc main_v47) = Gcn.lessLogSumExp (F := F) (W (Proc.devRef .tc main_call1_v5)) := by
  simp only [ops, List.take_succ_cons, List.take_zero, List.drop_succ_cons, List.drop_zero]
  after_results_simp
  try simp only [TRef.ofBuf, TRef.toBuf, cast_eq]
  try rfl

/-! ## The six stretches end to end -/

theorem ops_split : ops (F := F) = ops.take 7 ++ ((ops.drop 7).take 34 ++ ((ops.drop 41).take 19
    ++ ((ops.drop 60).take 2 ++ ((ops.drop 62).take 6 ++ ops.drop 68)))) := by
  simp only [ops, List.take_succ_cons, List.take_zero, List.drop_succ_cons, List.drop_zero, List.cons_append, List.nil_append]

set_option maxHeartbeats 4000000 in
/-- The result buffer after the whole line: the layer of the edge list, of the one contraction `x · w`, and of the bias. -/
theorem result_of (W : Valuation τ sig (Elt F)) :
    StableHlo.after (ops (F := F)) W (Proc.devRef .tc main_v47)
      = Gcn.layer (F := F) (W (Proc.devRef .tc main_arg1))
          (Host.dotGeneral dot_S50000x2048_S2048x512_S50000x512_1_0_0_1_n_n none (W (Proc.devRef .tc main_arg0)) (W (Proc.devRef .tc main_arg2)))
          (W (Proc.devRef .tc main_arg3)) := by
  rw [ops_split, StableHlo.after_append, StableHlo.after_append, StableHlo.after_append, StableHlo.after_append, StableHlo.after_append,
    lessLogSumExp_of, shifted_of, rowMax_kept, rowMax_of, sum_of,
    (mid_kept _).1, (mid_kept _).2.1, (mid_kept _).2.2, norm_of, dense_of, src_of, dst_of,
    (head_kept W).1, (head_kept W).2.1, (head_kept W).2.2]
  rfl

/-! ## The run -/

set_option maxRecDepth 8192 in
set_option maxHeartbeats 30000000 in
/-- On every device, from any memory with zero counters: every weakly fair execution of @main terminates with the
    result at the layer of the arguments (the dense part one contraction of the whole arrays) and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = Gcn.layer (F := F) (m ((c.tc : Thread nD τ).loc main_arg1))
            (Host.dotGeneral dot_S50000x2048_S2048x512_S50000x512_1_0_0_1_n_n none (m ((c.tc : Thread nD τ).loc main_arg0)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (result_of (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Hand

end
-- ==== Proof.RefDense.lean ====
/-
  The reference's dense layer at the extended reals: jnp's one contraction of the node features `[50000, 2048]` with
  the weights `[2048, 512]` over the feature axis is, entry by entry, the plain sum `∑ k, x[r, k] · w[k, j]`
  (`Cert.Gcn.dense`): the same function the kernel's fifty row blocks make up.
-/
import proofs.«169280_j30288109371814_1_alg».proof.ReferenceIdeal
import proofs.«169280_j30288109371814_1_alg».proof.Proof.Gen.ReferenceIdeal
import proofs.«169280_j30288109371814_1_alg».proof.Proof.DenseSpec
import Idealize.ShloMosaic.Lib.ValueIdx
import Idealize.ShloMosaic.PureOps.Ideal.Laws

noncomputable section

open Idealize.ShloMosaic Idealize.ShloMosaic.TcCoe Idealize.SL.Sem

namespace Cert.ReferenceIdeal.Dense

open Cert.ReferenceIdeal Cert.ReferenceIdeal.Gen Idealize.ShloMosaic.ValueIdx

/-- The left operand of the contraction at output entry `i` is read in row `i 0`; -/
theorem lhs_axis0 (i : S50000x512.Idx) (q : dot_S50000x2048_S2048x512_S50000x512_1_0_0_1_n_n.contr.Idx) :
    (dot_S50000x2048_S2048x512_S50000x512_1_0_0_1_n_n.lhsIdx i q 0).val = (i 0).val := by
  unfold DotDims.lhsIdx
  rw [dif_neg (show ¬(0 : Fin S50000x2048.rank) ∈ dot_S50000x2048_S2048x512_S50000x512_1_0_0_1_n_n.lhsBatch by decide), dif_pos (show (0 : Fin S50000x2048.rank) ∈ dot_S50000x2048_S2048x512_S50000x512_1_0_0_1_n_n.lhsNonContracting by decide)]
  rfl
/-- at the contracted feature; -/
theorem lhs_axis1 (i : S50000x512.Idx) (q : dot_S50000x2048_S2048x512_S50000x512_1_0_0_1_n_n.contr.Idx) :
    (dot_S50000x2048_S2048x512_S50000x512_1_0_0_1_n_n.lhsIdx i q 1).val = (q ⟨0, by decide⟩).val :=
  dot_S50000x2048_S2048x512_S50000x512_1_0_0_1_n_n.lhsIdx_val_of_single rfl i q
/-- the right operand in the row of the contracted feature, -/
theorem rhs_axis0 (i : S50000x512.Idx) (q : dot_S50000x2048_S2048x512_S50000x512_1_0_0_1_n_n.contr.Idx) :
    (dot_S50000x2048_S2048x512_S50000x512_1_0_0_1_n_n.rhsIdx i q 0).val = (q ⟨0, by decide⟩).val :=
  dot_S50000x2048_S2048x512_S50000x512_1_0_0_1_n_n.rhsIdx_val_of_single rfl i q
/-- at column `i 1`. -/
theorem rhs_axis1 (i : S50000x512.Idx) (q : dot_S50000x2048_S2048x512_S50000x512_1_0_0_1_n_n.contr.Idx) :
    (dot_S50000x2048_S2048x512_S50000x512_1_0_0_1_n_n.rhsIdx i q 1).val = (i 1).val := by
  unfold DotDims.rhsIdx
  rw [dif_neg (show ¬(1 : Fin S2048x512.rank) ∈ dot_S50000x2048_S2048x512_S50000x512_1_0_0_1_n_n.rhsBatch by decide), dif_pos (show (1 : Fin S2048x512.rank) ∈ dot_S50000x2048_S2048x512_S50000x512_1_0_0_1_n_n.rhsNonContracting by decide)]
  rfl

/-- The host's contraction is `x · w`. -/
theorem dotGeneral_eq_dense (x : FVec Ideal S50000x2048 .f32) (w : FVec Ideal S2048x512 .f32) :
    Host.dotGeneral (F := Ideal) dot_S50000x2048_S2048x512_S50000x512_1_0_0_1_n_n none x w = Cert.Gcn.dense x w := by
  funext i
  simp only [Host.dotGeneral]
  rw [Ideal.dotGeneral_apply, ← Equiv.sum_comp (ValueIdx.contrEquiv1 dot_S50000x2048_S2048x512_S50000x512_1_0_0_1_n_n 2048 rfl rfl).symm, Cert.Gcn.dense_apply]
  refine Finset.sum_congr rfl fun k _ => ?_
  have hk := ValueIdx.contrEquiv1_symm_val dot_S50000x2048_S2048x512_S50000x512_1_0_0_1_n_n 2048 rfl rfl k
  have el : dot_S50000x2048_S2048x512_S50000x512_1_0_0_1_n_n.lhsIdx i ((ValueIdx.contrEquiv1 dot_S50000x2048_S2048x512_S50000x512_1_0_0_1_n_n 2048 rfl rfl).symm k) = ix2 (⟨(i 0).val, idx2_lt0 i⟩ : Fin 50000) k := funext fun a => Fin.ext (by
    match a with
    | ⟨0, _⟩ => exact lhs_axis0 _ _
    | ⟨1, _⟩ => exact (lhs_axis1 _ _).trans hk)
  have er : dot_S50000x2048_S2048x512_S50000x512_1_0_0_1_n_n.rhsIdx i ((ValueIdx.contrEquiv1 dot_S50000x2048_S2048x512_S50000x512_1_0_0_1_n_n 2048 rfl rfl).symm k) = ix2 k (⟨(i 1).val, idx2_lt1 i⟩ : Fin 512) := funext fun a => Fin.ext (by
    match a with
    | ⟨0, _⟩ => exact (rhs_axis0 _ _).trans hk
    | ⟨1, _⟩ => exact rhs_axis1 _ _)
  rw [el, er]

end Cert.ReferenceIdeal.Dense

end
-- ==== Proof.lean ====
/-
  A graph-convolution layer: `log_softmax(Â · (x · w) + bias)` with `Â` the symmetrically normalized adjacency
  (self-loops added), over 50000 nodes, 400000 edges, 2048 input and 512 output features.

  The kernel program and the reference apply the same host operations around the dense layer `h = x · w`: from the
  edge list the message sources and targets and the edge weights `deg^(-1/2)[src] · deg^(-1/2)[dst]`; from `h` the
  messages gathered at the sources, scaled, added at the targets, the bias added, and the row-wise log-softmax
  (`Cert.ReferenceIdeal.Gcn.layer`, one function of the edge list, `h` and the bias for both programs). They differ in
  `h` alone. The kernel computes it in a region of fifty grid points, point `t` multiplying rows
  `1000 t … 1000 t + 999` of `x` (narrowed to bf16, which is the identity on the extended reals) with the whole of `w`
  into a zero accumulator; the blocks tile `h`, so the region leaves `h[r, j] = ∑ k, x[r, k] · w[k, j]`
  (`Cert.KernelIdeal.Dense.final`). The reference computes it by one contraction of the whole arrays, which at the
  extended reals is the same sum (`Cert.ReferenceIdeal.Dense.dotGeneral_eq_dense`). No algebraic law beyond that is
  used: the two sums have the same terms in the same order, so the precondition is never opened.
-/
import proofs.«169280_j30288109371814_1_alg».proof.Defs
import proofs.«169280_j30288109371814_1_alg».proof.Proof.Gen.Kernel
import proofs.«169280_j30288109371814_1_alg».proof.Proof.Gen.Kernel.Frame
import proofs.«169280_j30288109371814_1_alg».proof.Proof.Gen.KernelIdeal
import proofs.«169280_j30288109371814_1_alg».proof.Proof.Gen.KernelIdeal.Frame
import proofs.«169280_j30288109371814_1_alg».proof.Proof.Gen.ReferenceIdeal
import proofs.«169280_j30288109371814_1_alg».proof.Proof.Gen.Pre_finite_inputs
import proofs.«169280_j30288109371814_1_alg».proof.Proof.KernelValue
import proofs.«169280_j30288109371814_1_alg».proof.Proof.RefRun
import proofs.«169280_j30288109371814_1_alg».proof.Proof.RefDense
import Idealize.ShloMosaic.Adequacy
import Idealize.ShloMosaic.Init

noncomputable section

namespace Cert.Proof

open Idealize.ShloMosaic Idealize.SL.Sem

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- Both programs end at the layer of the edge list, of `x · w` and of the bias: the kernel's region leaves `x · w` in
    the transformed-features array, and the reference's one contraction is `x · w`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2, Cert.ReferenceIdeal.Dense.dotGeneral_eq_dense]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
